-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S128x32 .f32) (main_arg6 : FVec F S32 .f32) (main_arg7 : FVec F S128x32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x32 .f32 := Host.absf main_arg5
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S128x32 .f32 := Host.absf main_arg7
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x32 .f32) (main_arg6 : FVec F S32 .f32) (main_arg7 : FVec F S128x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S2000x128 : Shape := ⟨2, ![2000, 128]⟩
abbrev S1x32 : Shape := ⟨2, ![1, 32]⟩
abbrev S100000x32 : Shape := ⟨2, ![100000, 32]⟩
abbrev S2000x32 : Shape := ⟨2, ![2000, 32]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x32, .f32⟩
  | .hbm, ⟨6, _⟩ => ⟨S32, .f32⟩
  | .hbm, ⟨7, _⟩ => ⟨S128x32, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S100000x128, .f32⟩
  | .hbm, ⟨35, _⟩ => ⟨S600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S_, .f32⟩
  | .hbm, ⟨52, _⟩ => ⟨S100000x128, .f32⟩
  | .hbm, ⟨53, _⟩ => ⟨S600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x32, .f32⟩
  | .hbm, ⟨59, _⟩ => ⟨S100000x32, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x32, .f32⟩
  | .local _ .vmem, ⟨14, _⟩ => ⟨S128x32, .f32⟩
  | .local _ .vmem, ⟨15, _⟩ => ⟨S1x32, .f32⟩
  | .local _ .vmem, ⟨16, _⟩ => ⟨S2000x32, .f32⟩
  | .local _ .vmem, ⟨17, _⟩ => ⟨S2000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  dot_S2000x128_S128x32_S2000x32_1_0_0_1_n_n_wf : DotDims.WF S2000x128 S128x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S128x32.size a
  hwx1_3 : ∀ i : grid1.Coords, EltTy.bits .f32 = 32 ∨ (Rect.block (s := S128x32) S128x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S100000x32.size a
  hwx1_5 : ∀ i : grid1.Coords, EltTy.bits .f32 = 32 ∨ (Rect.block (s := S100000x32) S2000x32.size (cc1_transform_5 i) (hinb1_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S100000x32 : Shape := ⟨2, ![100000, 32]⟩
abbrev S1x32 : Shape := ⟨2, ![1, 32]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x32, .f32⟩
  | .hbm, ⟨6, _⟩ => ⟨S32, .f32⟩
  | .hbm, ⟨7, _⟩ => ⟨S128x32, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S100000x128, .f32⟩
  | .hbm, ⟨35, _⟩ => ⟨S600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S100000x128, .f32⟩
  | .hbm, ⟨60, _⟩ => ⟨S600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x32, .f32⟩
  | .hbm, ⟨69, _⟩ => ⟨S100000x32, .f32⟩
  | .hbm, ⟨70, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.KernelHost.lean ====
/-
  The host stretches of the kernel's program, read back as values. Before the first dense layer the program
  computes, on the host, the degrees, their clamped reciprocals and the mean aggregation of the node features
  (a gather of the source rows, a scatter-add into the destination rows, a scaling by the reciprocal degree);
  between the two dense layers it computes the same aggregation of the first layer's output. These are, operation
  for operation, the stages the reference computes, so each buffer a dense layer reads is stated as the reference's
  own stage of the launch arguments; the aggregation itself (a gather and a scatter-add) is never opened.
-/
import proofs.«117404_j11081015624123_1_alg».proof.Proof.Gen.KernelIdeal.Frame
import proofs.«117404_j11081015624123_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## The launch arguments, typed as the reference's stages take them -/

abbrev X0 (c : Dev nD) : (⟨Cert.ReferenceIdeal.S100000x128, .f32⟩ : BufTy).Contents (Elt Ideal) := m ((c.tc : Thread nD τ).loc main_arg0)
abbrev X1 (c : Dev nD) : (⟨Cert.ReferenceIdeal.S2x600000, .i32⟩ : BufTy).Contents (Elt Ideal) := m ((c.tc : Thread nD τ).loc main_arg1)
abbrev X2 (c : Dev nD) : (⟨Cert.ReferenceIdeal.S128x128, .f32⟩ : BufTy).Contents (Elt Ideal) := m ((c.tc : Thread nD τ).loc main_arg2)
abbrev X3 (c : Dev nD) : (⟨Cert.ReferenceIdeal.S128, .f32⟩ : BufTy).Contents (Elt Ideal) := m ((c.tc : Thread nD τ).loc main_arg3)
abbrev X4 (c : Dev nD) : (⟨Cert.ReferenceIdeal.S128x128, .f32⟩ : BufTy).Contents (Elt Ideal) := m ((c.tc : Thread nD τ).loc main_arg4)
abbrev X5 (c : Dev nD) : (⟨Cert.ReferenceIdeal.S128x32, .f32⟩ : BufTy).Contents (Elt Ideal) := m ((c.tc : Thread nD τ).loc main_arg5)
abbrev X6 (c : Dev nD) : (⟨Cert.ReferenceIdeal.S32, .f32⟩ : BufTy).Contents (Elt Ideal) := m ((c.tc : Thread nD τ).loc main_arg6)
abbrev X7 (c : Dev nD) : (⟨Cert.ReferenceIdeal.S128x32, .f32⟩ : BufTy).Contents (Elt Ideal) := m ((c.tc : Thread nD τ).loc main_arg7)

/-! ## Before the first dense layer -/

set_option maxHeartbeats 8000000 in
/-- The first layer's aggregated features are the reference's mean aggregation of the node features. -/
theorem V1_v24 (c : Dev nD) : V1 m ρ c main_v24 = Cert.ReferenceIdeal.Read.val_main_v24 (F := Ideal) (X0 m c) (X1 m c) := by
  show StableHlo.after hostOps0 (W0 m ρ c) (Proc.devRef .tc main_v24) = _
  dsimp only [hostOps0]
  after_results_simp
  rfl

/-- The node features reach the first layer as launched. -/
theorem V1_arg0 (c : Dev nD) : V1 m ρ c main_arg0 = X0 m c := by
  show StableHlo.after hostOps0 (W0 m ρ c) (Proc.devRef .tc main_arg0) = _
  dsimp only [hostOps0]
  after_results

/-- The first layer's left weights, as launched. -/
theorem V1_arg2 (c : Dev nD) : V1 m ρ c main_arg2 = X2 m c := by
  show StableHlo.after hostOps0 (W0 m ρ c) (Proc.devRef .tc main_arg2) = _
  dsimp only [hostOps0]
  after_results

/-- The first layer's right weights, as launched. -/
theorem V1_arg4 (c : Dev nD) : V1 m ρ c main_arg4 = X4 m c := by
  show StableHlo.after hostOps0 (W0 m ρ c) (Proc.devRef .tc main_arg4) = _
  dsimp only [hostOps0]
  after_results

/-- The first layer's bias row [1, 128] is the bias vector laid out as a row. -/
theorem V1_bias (c : Dev nD) : (fun q : Fin 128 => V1 m ρ c main_v25 (ix2 (0 : Fin 1) q)) = fun q => X3 m c (ix1 q) := by
  have e : V1 m ρ c main_v25 = shapeCast _ (X3 m c) shapeCasts_S128_S1x128 := by
    show StableHlo.after hostOps0 (W0 m ρ c) (Proc.devRef .tc main_v25) = _
    dsimp only [hostOps0]
    after_results
    rfl
  funext q
  rw [e]
  exact shapeCast_apply (X3 m c) shapeCasts_S128_S1x128 (ix2 (0 : Fin 1) q) (ix1 q)
    (by rewrite [Shape.rowMajor_val_two, Shape.rowMajor_val_one]; show q.val = 0 * 128 + q.val; omega)

/-! ## Between the two dense layers: what the first region's exit holds of the earlier host results -/

/-- The source indices (computed before the first layer) are still there after it. -/
theorem W2_v1 (c : Dev nD) : W2 m ρ c (Proc.devRef .tc main_v1) = Cert.ReferenceIdeal.Read.val_main_v1 (F := Ideal) (X1 m c) := by
  rw [W2_of_ne m ρ c main_v1 (by decide)]
  show StableHlo.after hostOps0 (W0 m ρ c) (Proc.devRef .tc main_v1) = _
  dsimp only [hostOps0]
  after_results
  rfl

/-- The destination indices likewise. -/
theorem W2_v3 (c : Dev nD) : W2 m ρ c (Proc.devRef .tc main_v3) = Cert.ReferenceIdeal.Read.val_main_v3 (F := Ideal) (X1 m c) := by
  rw [W2_of_ne m ρ c main_v3 (by decide)]
  show StableHlo.after hostOps0 (W0 m ρ c) (Proc.devRef .tc main_v3) = _
  dsimp only [hostOps0]
  after_results
  rfl

/-- The clamped reciprocal degrees likewise. -/
theorem W2_v11 (c : Dev nD) : W2 m ρ c (Proc.devRef .tc main_v11) = Cert.ReferenceIdeal.Read.val_main_v11 (F := Ideal) (X1 m c) := by
  rw [W2_of_ne m ρ c main_v11 (by decide)]
  show StableHlo.after hostOps0 (W0 m ρ c) (Proc.devRef .tc main_v11) = _
  dsimp only [hostOps0]
  after_results
  rfl

/-- An argument the first region does not write is, at its exit, as launched. -/
theorem W2_arg5 (c : Dev nD) : W2 m ρ c (Proc.devRef .tc main_arg5) = X5 m c := by
  rw [W2_of_ne m ρ c main_arg5 (by decide)]
  show StableHlo.after hostOps0 (W0 m ρ c) (Proc.devRef .tc main_arg5) = _
  dsimp only [hostOps0]
  after_results
theorem W2_arg6 (c : Dev nD) : W2 m ρ c (Proc.devRef .tc main_arg6) = X6 m c := by
  rw [W2_of_ne m ρ c main_arg6 (by decide)]
  show StableHlo.after hostOps0 (W0 m ρ c) (Proc.devRef .tc main_arg6) = _
  dsimp only [hostOps0]
  after_results
theorem W2_arg7 (c : Dev nD) : W2 m ρ c (Proc.devRef .tc main_arg7) = X7 m c := by
  rw [W2_of_ne m ρ c main_arg7 (by decide)]
  show StableHlo.after hostOps0 (W0 m ρ c) (Proc.devRef .tc main_arg7) = _
  dsimp only [hostOps0]
  after_results

/-! ## Before the second dense layer -/

set_option maxHeartbeats 8000000 in
/-- The second layer's aggregated features: the same mean aggregation, of whatever the first layer left (`h1`). -/
theorem V3_v39 (c : Dev nD) (h1 : (⟨Cert.ReferenceIdeal.S100000x128, .f32⟩ : BufTy).Contents (Elt Ideal))
    (hh : W2 m ρ c (Proc.devRef .tc main_v26) = h1) :
    (V3 m ρ c main_v39 : FVec Ideal Cert.ReferenceIdeal.S100000x128 .f32)
      = mulf (F := Ideal) (φ := .f32) (Host.scatterAdd Cert.ReferenceIdeal.scatter_S100000x128_S600000x1_S600000x128_1_0_0_1 (Cert.ReferenceIdeal.Read.val_main_v39 (F := Ideal))
            (Cert.ReferenceIdeal.Read.val_main_v40 (F := Ideal) (X1 m c))
            (Host.gather Cert.ReferenceIdeal.gather_S100000x128_S600000x1_S600000x128_1_0_n_n_0_1_1128 h1 (Cert.ReferenceIdeal.Read.val_main_v37 (F := Ideal) (X1 m c))))
          (Cert.ReferenceIdeal.Read.val_main_v43 (F := Ideal) (X1 m c)) := by
  show StableHlo.after hostOps1 (W2 m ρ c) (Proc.devRef .tc main_v39) = _
  dsimp only [hostOps1]
  after_results_simp
  rw [hh, W2_v1, W2_v3, W2_v11]
  rfl

/-- The first layer's output reaches the second layer as the first region left it. -/
theorem V3_v26 (c : Dev nD) : V3 m ρ c main_v26 = W2 m ρ c (Proc.devRef .tc main_v26) := by
  show StableHlo.after hostOps1 (W2 m ρ c) (Proc.devRef .tc main_v26) = _
  dsimp only [hostOps1]
  after_results

/-- The second layer's left weights, as launched. -/
theorem V3_arg5 (c : Dev nD) : V3 m ρ c main_arg5 = X5 m c := by
  show StableHlo.after hostOps1 (W2 m ρ c) (Proc.devRef .tc main_arg5) = _
  dsimp only [hostOps1]
  after_results
  exact W2_arg5 m ρ c

/-- The second layer's right weights, as launched. -/
theorem V3_arg7 (c : Dev nD) : V3 m ρ c main_arg7 = X7 m c := by
  show StableHlo.after hostOps1 (W2 m ρ c) (Proc.devRef .tc main_arg7) = _
  dsimp only [hostOps1]
  after_results
  exact W2_arg7 m ρ c

/-- The second layer's bias row [1, 32] is the bias vector laid out as a row. -/
theorem V3_bias (c : Dev nD) : (fun q : Fin 32 => V3 m ρ c main_v40 (ix2 (0 : Fin 1) q)) = fun q => X6 m c (ix1 q) := by
  have e : V3 m ρ c main_v40 = shapeCast _ (X6 m c) shapeCasts_S32_S1x32 := by
    show StableHlo.after hostOps1 (W2 m ρ c) (Proc.devRef .tc main_v40) = _
    dsimp only [hostOps1]
    after_results
    rw [W2_arg6]
    rfl
  funext q
  rw [e]
  exact shapeCast_apply (X6 m c) shapeCasts_S32_S1x32 (ix2 (0 : Fin 1) q) (ix1 q)
    (by rewrite [Shape.rowMajor_val_two, Shape.rowMajor_val_one]; show q.val = 0 * 32 + q.val; omega)

end Cert.KernelIdeal.Host

end
-- ==== Proof.KernelPay.lean ====
/-
  The arithmetic of the two dense layers' kernel bodies, read at one output entry at the ideal values.

  Each body narrows its four matrix operands (the identity on extended reals), forms the two matrix products into
  zero accumulators, adds them, adds the bias row broadcast down the 2000 rows, and — in the first layer only —
  takes the maximum with the float pattern of 0.0. Read at row `p` and column `q` this is
      (Σ_k x0[p, k] · x2[k, q] + Σ_k x1[p, k] · x3[k, q]) + x4[0, q],
  the first layer's under `max(·, 0)`.
-/
import proofs.«117404_j11081015624123_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx
open Cert.KernelIdeal Cert.KernelIdeal.Gen
open scoped BigOperators

/-! ## The [2000, 128] × [128, 128] product -/

/-- The left operand's row is the output's row. -/
theorem lhs128_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contraction index. -/
theorem lhs128_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
/-- The right operand's row is the contraction index. -/
theorem rhs128_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
/-- The right operand's column is the output's column. -/
theorem rhs128_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A matrix product into the zero accumulator, read at row `p` and column `q`: the sum over the 128 contraction
    positions of the left operand's row `p` against the right operand's column `q`. -/
theorem matmul128_apply {φ₁ φ₂ : FTy} (a : FVec Ideal S2000x128 φ₁) (w : FVec Ideal S128x128 φ₂) (p : Fin 2000) (q : Fin 128) :
    matmul dot_S2000x128_S128x128_S2000x128_1_0_0_1_n_n none a w (constant S2000x128 .f32 0x00000000#32) (ix2 p q)
      = ∑ k : Fin 128, a (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun t => Fin.ext (by
    match t with
    | ⟨0, _⟩ => exact lhs128_0 _ _
    | ⟨1, _⟩ => exact (lhs128_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun t => Fin.ext (by
    match t with
    | ⟨0, _⟩ => exact (rhs128_0 _ _).trans hk
    | ⟨1, _⟩ => exact rhs128_1 _ _)
  rw [el, er]

/-! ## The [2000, 128] × [128, 32] product -/

/-- The left operand's row is the output's row. -/
theorem lhs32_0 (i : S2000x32.Idx) (c : dot_S2000x128_S128x32_S2000x32_1_0_0_1_n_n.contr.Idx) :
    (dot_S2000x128_S128x32_S2000x32_1_0_0_1_n_n.lhsIdx i c 0).val = (i 0).val := by
  unfold DotDims.lhsIdx
  rw [dif_neg (show ¬(0 : Fin S2000x128.rank) ∈ dot_S2000x128_S128x32_S2000x32_1_0_0_1_n_n.lhsBatch by decide), dif_pos (show (0 : Fin S2000x128.rank) ∈ dot_S2000x128_S128x32_S2000x32_1_0_0_1_n_n.lhsNonContracting by decide)]
  rfl
/-- The left operand's column is the contraction index. -/
theorem lhs32_1 (i : S2000x32.Idx) (c : dot_S2000x128_S128x32_S2000x32_1_0_0_1_n_n.contr.Idx) :
    (dot_S2000x128_S128x32_S2000x32_1_0_0_1_n_n.lhsIdx i c 1).val = (c ⟨0, by decide⟩).val :=
  dot_S2000x128_S128x32_S2000x32_1_0_0_1_n_n.lhsIdx_val_of_single rfl i c
/-- The right operand's row is the contraction index. -/
theorem rhs32_0 (i : S2000x32.Idx) (c : dot_S2000x128_S128x32_S2000x32_1_0_0_1_n_n.contr.Idx) :
    (dot_S2000x128_S128x32_S2000x32_1_0_0_1_n_n.rhsIdx i c 0).val = (c ⟨0, by decide⟩).val :=
  dot_S2000x128_S128x32_S2000x32_1_0_0_1_n_n.rhsIdx_val_of_single rfl i c
/-- The right operand's column is the output's column. -/
theorem rhs32_1 (i : S2000x32.Idx) (c : dot_S2000x128_S128x32_S2000x32_1_0_0_1_n_n.contr.Idx) :
    (dot_S2000x128_S128x32_S2000x32_1_0_0_1_n_n.rhsIdx i c 1).val = (i 1).val := by
  unfold DotDims.rhsIdx
  rw [dif_neg (show ¬(1 : Fin S128x32.rank) ∈ dot_S2000x128_S128x32_S2000x32_1_0_0_1_n_n.rhsBatch by decide), dif_pos (show (1 : Fin S128x32.rank) ∈ dot_S2000x128_S128x32_S2000x32_1_0_0_1_n_n.rhsNonContracting by decide)]
  rfl

/-- A matrix product into the zero accumulator, read at row `p` and column `q`: the sum over the 128 contraction
    positions of the left operand's row `p` against the right operand's column `q`. -/
theorem matmul32_apply {φ₁ φ₂ : FTy} (a : FVec Ideal S2000x128 φ₁) (w : FVec Ideal S128x32 φ₂) (p : Fin 2000) (q : Fin 32) :
    matmul dot_S2000x128_S128x32_S2000x32_1_0_0_1_n_n none a w (constant S2000x32 .f32 0x00000000#32) (ix2 p q)
      = ∑ k : Fin 128, a (ix2 p k) * w (ix2 k q) := by
  simp only [matmul]
  rw [Ideal.matmul_constant_zero_apply, ← Equiv.sum_comp (contrEquiv1 dot_S2000x128_S128x32_S2000x32_1_0_0_1_n_n 128 rfl rfl).symm]
  refine Finset.sum_congr rfl fun k _ => ?_
  have hk := contrEquiv1_symm_val dot_S2000x128_S128x32_S2000x32_1_0_0_1_n_n 128 rfl rfl k
  have el : dot_S2000x128_S128x32_S2000x32_1_0_0_1_n_n.lhsIdx (ix2 p q) ((contrEquiv1 dot_S2000x128_S128x32_S2000x32_1_0_0_1_n_n 128 rfl rfl).symm k) = ix2 p k := funext fun t => Fin.ext (by
    match t with
    | ⟨0, _⟩ => exact lhs32_0 _ _
    | ⟨1, _⟩ => exact (lhs32_1 _ _).trans hk)
  have er : dot_S2000x128_S128x32_S2000x32_1_0_0_1_n_n.rhsIdx (ix2 p q) ((contrEquiv1 dot_S2000x128_S128x32_S2000x32_1_0_0_1_n_n 128 rfl rfl).symm k) = ix2 k q := funext fun t => Fin.ext (by
    match t with
    | ⟨0, _⟩ => exact (rhs32_0 _ _).trans hk
    | ⟨1, _⟩ => exact rhs32_1 _ _)
  rw [el, er]

/-! ## The two bodies -/

/-- The first layer's body at row `p`, column `q`: the two products' sum, plus the bias at `q`, under the maximum
    with the float pattern of 0.0. The narrowing of the operands and the same-shape casts are identities here. -/
theorem pay0_apply (x0 x1 : Vec Ideal S2000x128 .f32) (x2 x3 : Vec Ideal S128x128 .f32) (x4 : Vec Ideal S1x128 .f32) (p : Fin 2000) (q : Fin 128) :
    k0_pay1 (F := Ideal) x0 x1 x2 x3 x4 (ix2 p q)
      = max (((∑ k : Fin 128, x0 (ix2 p k) * x2 (ix2 k q)) + ∑ k : Fin 128, x1 (ix2 p k) * x3 (ix2 k q)) + x4 (ix2 (0 : Fin 1) q)) (Ideal.ofBits .f32 0x00000000#32) := by
  unfold k0_pay1
  refine (maximumf_apply _ _ _).trans ?_
  refine congrArg₂ max ?_ rfl
  rw [shapeCast_self, shapeCast_self]
  refine (addf_apply _ _ _).trans ?_
  refine congrArg₂ (· + ·) ?_ ?_
  · refine (addf_apply _ _ _).trans ?_
    exact congrArg₂ (· + ·) (matmul128_apply _ _ p q) (matmul128_apply _ _ p q)
  · exact broadcastTo_apply x4 broadcasts_S1x128_S2000x128 (ix2 p q) (ix2 (0 : Fin 1) q) (fun t => match t with
      | ⟨0, _⟩ => by show (0 : ℕ) = if (1 : ℕ) = 1 then 0 else _; rw [if_pos rfl]
      | ⟨1, _⟩ => by show q.val = if (128 : ℕ) = 1 then 0 else q.val; rw [if_neg (by decide)])

/-- The second layer's body at row `p`, column `q`: the two products' sum, plus the bias at `q`. -/
theorem pay1_apply (x0 x1 : Vec Ideal S2000x128 .f32) (x2 x3 : Vec Ideal S128x32 .f32) (x4 : Vec Ideal S1x32 .f32) (p : Fin 2000) (q : Fin 32) :
    k1_pay1 (F := Ideal) x0 x1 x2 x3 x4 (ix2 p q)
      = ((∑ k : Fin 128, x0 (ix2 p k) * x2 (ix2 k q)) + ∑ k : Fin 128, x1 (ix2 p k) * x3 (ix2 k q)) + x4 (ix2 (0 : Fin 1) q) := by
  unfold k1_pay1
  rw [shapeCast_self, shapeCast_self, shapeCast_self]
  refine (addf_apply _ _ _).trans ?_
  refine congrArg₂ (· + ·) ?_ ?_
  · refine (addf_apply _ _ _).trans ?_
    exact congrArg₂ (· + ·) (matmul32_apply _ _ p q) (matmul32_apply _ _ p q)
  · exact broadcastTo_apply x4 broadcasts_S1x32_S2000x32 (ix2 p q) (ix2 (0 : Fin 1) q) (fun t => match t with
      | ⟨0, _⟩ => by show (0 : ℕ) = if (1 : ℕ) = 1 then 0 else _; rw [if_pos rfl]
      | ⟨1, _⟩ => by show q.val = if (32 : ℕ) = 1 then 0 else q.val; rw [if_neg (by decide)])

end Cert.KernelIdeal.Pay

end
-- ==== Proof.Spec.lean ====
/-
  Two GraphSAGE layers, each a mean aggregation on the host followed by a dense linear map: the mathematics
  both programs compute, stated once over the extended reals.

  A layer's linear map takes the aggregated features `a` and the node features `h` (both [100000, 128]), two
  weight matrices `wl`, `wr` ([128, n]) and a bias `b` (length n) to
      out[r, q] = (Σ_k a[r, k] · wl[k, q] + Σ_k h[r, k] · wr[k, q]) + b[q],
  the first layer followed by `max(·, 0)`. The kernel adds the two products first and the bias last; the
  reference adds the bias to the first product and then the second product. Addition on the extended reals is
  commutative and associative, so the two orders agree everywhere — no finiteness is needed.
-/
import Idealize.ShloMosaic.PureOps.Ideal
import Idealize.ShloMosaic.Lib.ValueIdx

noncomputable section

namespace Cert.Sage

open Idealize.ShloMosaic Idealize.ShloMosaic.ValueIdx
open scoped BigOperators

/-- Node features, [100000, 128]. -/
abbrev SN128 : Shape := ⟨2, ![100000, 128]⟩
/-- The second layer's output, [100000, 32]. -/
abbrev SN32 : Shape := ⟨2, ![100000, 32]⟩
/-- The first layer's weights, [128, 128]. -/
abbrev SW128 : Shape := ⟨2, ![128, 128]⟩
/-- The second layer's weights, [128, 32]. -/
abbrev SW32 : Shape := ⟨2, ![128, 32]⟩

/-- Entry (r, q) of the first layer's linear map before the activation: row `r` of the aggregated features
    against column `q` of the left weights, plus row `r` of the node features against column `q` of the right
    weights, plus the bias at `q`. -/
def pre1 (a h : FVec Ideal SN128 .f32) (wl wr : FVec Ideal SW128 .f32) (b : Fin 128 → Ideal .f32)
    (r : Fin 100000) (q : Fin 128) : Ideal .f32 :=
  ((∑ k : Fin 128, a (ix2 r k) * wl (ix2 k q)) + ∑ k : Fin 128, h (ix2 r k) * wr (ix2 k q)) + b q

/-- The first layer: the linear map followed by `max(·, 0)`, the zero being the float pattern of `0.0`. -/
def layer1 (a h : FVec Ideal SN128 .f32) (wl wr : FVec Ideal SW128 .f32) (b : Fin 128 → Ideal .f32) :
    FVec Ideal SN128 .f32 :=
  fun i => max (pre1 a h wl wr b (i 0) (i 1)) (Ideal.ofBits .f32 0x00000000#32)

/-- Entry (r, q) of the second layer's linear map (no activation follows it). -/
def pre2 (a h : FVec Ideal SN128 .f32) (wl wr : FVec Ideal SW32 .f32) (b : Fin 32 → Ideal .f32)
    (r : Fin 100000) (q : Fin 32) : Ideal .f32 :=
  ((∑ k : Fin 128, a (ix2 r k) * wl (ix2 k q)) + ∑ k : Fin 128, h (ix2 r k) * wr (ix2 k q)) + b q

/-- The second layer. -/
def layer2 (a h : FVec Ideal SN128 .f32) (wl wr : FVec Ideal SW32 .f32) (b : Fin 32 → Ideal .f32) :
    FVec Ideal SN32 .f32 :=
  fun i => pre2 a h wl wr b (i 0) (i 1)

/-- The reference's order of the three summands is the kernel's: `(p + b) + s = (p + s) + b`. -/
theorem add_bias_comm (p s b : EReal) : (p + b) + s = (p + s) + b := add_right_comm p b s

end Cert.Sage

end
-- ==== Proof.KernelBlocks0.lean ====
/-
  The first dense layer as the first region leaves it. The region runs the kernel body at fifty grid points; at
  point `t` the body reads rows `2000 t … 2000 t + 1999` of the aggregated features and of the node features, the
  two whole weight matrices and the bias row, and writes rows `2000 t … 2000 t + 1999` of the output. What a point
  writes back is therefore block `t` of ONE function of the whole arrays — the layer `Cert.Sage.layer1` —, the
  fifty blocks tile the output, and the array after the region is that function. The arrays the region finds
  (`V`) are a parameter here: which values they hold is the host stretch's business.
-/
import proofs.«117404_j11081015624123_1_alg».proof.Proof.Gen.KernelIdeal.Frame
import proofs.«117404_j11081015624123_1_alg».proof.Proof.KernelPay
import proofs.«117404_j11081015624123_1_alg».proof.Proof.Spec
import Idealize.ShloMosaic.Lib.Pipeline.Value
import Idealize.ShloMosaic.Lib.ValueIdx

set_option maxRecDepth 16384

noncomputable section

namespace Cert.KernelIdeal.Blocks0

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the fifty grid points: the two row-blocked inputs and the output are at row block `t`,
    the weights and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of row block `t` is row `2000 t + p` of the array. -/
def row (t : Fin cfg0.N) (p : Fin 2000) : Fin 100000 :=
  ⟨t.val * 2000 + p.val, by have h1 := t.isLt; have h2 : cfg0.N = 50 := N_0; have h3 := p.isLt; omega⟩

theorem row_val (t : Fin cfg0.N) (p : Fin 2000) : (row t p).val = t.val * 2000 + p.val := rfl

/-- The aggregated features' block at point `t` is rows `2000 t … 2000 t + 1999` of the array. -/
theorem blk_a (c : Dev nD) (t : Fin cfg0.N) (p : Fin 2000) (k : Fin 128) :
    (iblk0 V c 0 t : Vec Ideal S2000x128 .f32) (ix2 p k) = V c main_v24 (ix2 (row t p) k) := by
  obtain ⟨e0, e1, -⟩ := idx_facts t
  show V c main_v24 (((cfg0.win 0).blk t).view.emb (ix2 p k)) = V c main_v24 (ix2 (row t p) k)
  refine congrArg (V c main_v24) ?_
  funext a; apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The node features' block likewise. -/
theorem blk_h (c : Dev nD) (t : Fin cfg0.N) (p : Fin 2000) (k : Fin 128) :
    (iblk0 V c 1 t : Vec Ideal S2000x128 .f32) (ix2 p k) = V c main_arg0 (ix2 (row t p) k) := by
  obtain ⟨-, -, e0, e1, -⟩ := idx_facts t
  show V c main_arg0 (((cfg0.win 1).blk t).view.emb (ix2 p k)) = V c main_arg0 (ix2 (row t p) k)
  refine congrArg (V c main_arg0) ?_
  funext a; apply Fin.ext
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- The left weights' one block is the whole matrix. -/
theorem blk_wl (c : Dev nD) (t : Fin cfg0.N) (k : Fin 128) (q : Fin 128) :
    (iblk0 V c 2 t : Vec Ideal S128x128 .f32) (ix2 k q) = V c main_arg2 (ix2 k q) := by
  obtain ⟨-, -, -, -, e0, e1, -⟩ := idx_facts t
  show V c main_arg2 (((cfg0.win 2).blk t).view.emb (ix2 k q)) = V c main_arg2 (ix2 k q)
  refine congrArg (V c main_arg2) ?_
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The right weights' one block is the whole matrix. -/
theorem blk_wr (c : Dev nD) (t : Fin cfg0.N) (k : Fin 128) (q : Fin 128) :
    (iblk0 V c 3 t : Vec Ideal S128x128 .f32) (ix2 k q) = V c main_arg4 (ix2 k q) := by
  obtain ⟨-, -, -, -, -, -, e0, e1, -⟩ := idx_facts t
  show V c main_arg4 (((cfg0.win 3).blk t).view.emb (ix2 k q)) = V c main_arg4 (ix2 k q)
  refine congrArg (V c main_arg4) ?_
  funext a; apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias row's one block is the whole row. -/
theorem blk_b (c : Dev nD) (t : Fin cfg0.N) (q : Fin 128) :
    (iblk0 V c 4 t : Vec Ideal S1x128 .f32) (ix2 (0 : Fin 1) q) = V c main_v25 (ix2 (0 : Fin 1) q) := by
  obtain ⟨-, -, -, -, -, -, -, -, e0, e1, -⟩ := idx_facts t
  show V c main_v25 (((cfg0.win 4).blk t).view.emb (ix2 (0 : Fin 1) q)) = V c main_v25 (ix2 (0 : Fin 1) q)
  refine congrArg (V c main_v25) ?_
  funext a; apply Fin.ext
  match a with
  | ⟨0, _⟩ => show win0_4.index t (0 : Fin 2) * 1 + 1 * (0 : Fin 1).val = (0 : Fin 1).val; rw [e0]; rfl
  | ⟨1, _⟩ => show win0_4.index t (1 : Fin 2) * 128 + 1 * q.val = q.val; rw [e1]; omega

/-- Entry (p, q) of the output's block at point `t` sits at row `2000 t + p`, column `q` of the array. -/
theorem emb_out (t : Fin cfg0.N) (p : Fin 2000) (q : Fin 128) :
    ((cfg0.win 5).blk t).view.emb (ix2 p q) = ix2 (row t p) q := by
  obtain ⟨-, -, -, -, -, -, -, -, -, -, e0, e1⟩ := idx_facts t
  funext a; apply Fin.ext
  match a with
  | ⟨0, _⟩ => show win0_5.index t (0 : Fin 2) * 2000 + 1 * p.val = t.val * 2000 + p.val; rw [e0]; omega
  | ⟨1, _⟩ => show win0_5.index t (1 : Fin 2) * 128 + 1 * q.val = q.val; rw [e1]; omega

/-- An index of the array is in point `t`'s output block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- Every row of the array is in the block of the point `row / 2000`: the fifty blocks tile the array. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0]; omega
  | ⟨1, _⟩ => show win0_5.index t (1 : Fin 2) * 128 ≤ (i 1).val ∧ (i 1).val < win0_5.index t (1 : Fin 2) * 128 + 128; rw [e1]; omega

/-- The body's arithmetic on a row block is the first layer's function read through the block: the block's rows are rows
    `rowOf p` of the arrays, the weights and the bias are whole. -/
theorem block_eq (x0 x1 : Vec Ideal S2000x128 .f32) (x2 x3 : Vec Ideal S128x128 .f32) (x4 : Vec Ideal S1x128 .f32)
    (A H : FVec Ideal Cert.Sage.SN128 .f32) (WL WR : FVec Ideal Cert.Sage.SW128 .f32) (B : Fin 128 → Ideal .f32)
    (e : S2000x128.Idx → Cert.Sage.SN128.Idx) (rowOf : Fin 2000 → Fin 100000)
    (he : ∀ p q, e (ix2 p q) = ix2 (rowOf p) q)
    (h0 : ∀ p k, x0 (ix2 p k) = A (ix2 (rowOf p) k)) (h1 : ∀ p k, x1 (ix2 p k) = H (ix2 (rowOf p) k))
    (h2 : ∀ k q, x2 (ix2 k q) = WL (ix2 k q)) (h3 : ∀ k q, x3 (ix2 k q) = WR (ix2 k q))
    (h4 : ∀ q, x4 (ix2 (0 : Fin 1) q) = B q) :
    k0_pay1 (F := Ideal) x0 x1 x2 x3 x4 = fun y => Cert.Sage.layer1 A H WL WR B (e y) := by
  funext y
  obtain ⟨p, q, rfl⟩ : ∃ (p : Fin 2000) (q : Fin 128), y = ix2 p q := ⟨y 0, y 1, eq_ix2 y⟩
  rw [Cert.KernelIdeal.Pay.pay0_apply, he]
  unfold Cert.Sage.layer1 Cert.Sage.pre1
  simp only [h0, h1, h2, h3, h4]

/-- WHAT POINT `t` WRITES BACK is block `t` of the first layer's function of the arrays as the region finds them. -/
theorem flushed_eq (c : Dev nD) (t : Fin cfg0.N) :
    (dat0 V c).flushed 5 t = ((cfg0.win 5).blk t).view.read (Elt Ideal)
      (Cert.Sage.layer1 (V c main_v24) (V c main_arg0) (V c main_arg2) (V c main_arg4) (fun q => V c main_v25 (ix2 (0 : Fin 1) q))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  exact block_eq (iblk0 V c 0 t) (iblk0 V c 1 t) (iblk0 V c 2 t) (iblk0 V c 3 t) (iblk0 V c 4 t)
    (V c main_v24) (V c main_arg0) (V c main_arg2) (V c main_arg4) (fun q => V c main_v25 (ix2 (0 : Fin 1) q))
    (fun y => ((cfg0.win 5).blk t).view.emb y) (row t) (emb_out t)
    (blk_a V c t) (blk_h V c t) (blk_wl V c t) (blk_wr V c t) (blk_b V c t)

/-- THE ARRAY the first region leaves: the first layer's function of the arrays it found. -/
theorem final (c : Dev nD) :
    (dat0 V c).arrAt 5 cfg0.N
      = Cert.Sage.layer1 (V c main_v24) (V c main_arg0) (V c main_arg2) (V c main_arg4) (fun q => V c main_v25 (ix2 (0 : Fin 1) q)) :=
  (dat0 V c).arrAt_eq_of_cover 5 _ (fun t _ => flushed_eq V c t) cover

end Cert.KernelIdeal.Blocks0

end
-- ==== Proof.KernelBlocks1.lean ====
/-
  The second dense layer as the second region leaves it. As in the first region, fifty grid points: at point `t` the
  body reads rows `2000 t … 2000 t + 1999` of the second aggregation and of the first layer's output (both
  [100000, 128]), the two whole [128, 32] weight matrices and the [1, 32] bias row, and writes rows
  `2000 t … 2000 t + 1999` of the [100000, 32] result. What a point writes back is block `t` of the layer
  `Cert.Sage.layer2` of the whole arrays, the fifty blocks tile the result, and the array after the region is that
  function. The arrays the region finds (`V`) are a parameter.
-/
import proofs.«117404_j11081015624123_1_alg».proof.Proof.Gen.KernelIdeal.Frame
import proofs.«117404_j11081015624123_1_alg».proof.Proof.KernelPay
import proofs.«117404_j11081015624123_1_alg».proof.Proof.Spec
import Idealize.ShloMosaic.Lib.Pipeline.Value
import Idealize.ShloMosaic.Lib.ValueIdx

set_option maxRecDepth 16384

noncomputable section

namespace Cert.KernelIdeal.Blocks1

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the fifty grid points: the two row-blocked inputs and the output are at row block `t`,
    the weights and the bias at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of row block `t` is row `2000 t + p` of the array. -/
def row (t : Fin cfg1.N) (p : Fin 2000) : Fin 100000 :=
  ⟨t.val * 2000 + p.val, by have h1 := t.isLt; have h2 : cfg1.N = 50 := N_1; have h3 := p.isLt; omega⟩

theorem row_val (t : Fin cfg1.N) (p : Fin 2000) : (row t p).val = t.val * 2000 + p.val := rfl

/-- The second aggregation's block at point `t` is rows `2000 t … 2000 t + 1999` of the array. -/
theorem blk_a (c : Dev nD) (t : Fin cfg1.N) (p : Fin 2000) (k : Fin 128) :
    (iblk1 V c 0 t : Vec Ideal S2000x128 .f32) (ix2 p k) = V c main_v39 (ix2 (row t p) k) := by
  obtain ⟨e0, e1, -⟩ := idx_facts t
  show V c main_v39 (((cfg1.win 0).blk t).view.emb (ix2 p k)) = V c main_v39 (ix2 (row t p) k)
  refine congrArg (V c main_v39) ?_
  funext a; apply Fin.ext
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- The first layer's output's block likewise. -/
theorem blk_h (c : Dev nD) (t : Fin cfg1.N) (p : Fin 2000) (k : Fin 128) :
    (iblk1 V c 1 t : Vec Ideal S2000x128 .f32) (ix2 p k) = V c main_v26 (ix2 (row t p) k) := by
  obtain ⟨-, -, e0, e1, -⟩ := idx_facts t
  show V c main_v26 (((cfg1.win 1).blk t).view.emb (ix2 p k)) = V c main_v26 (ix2 (row t p) k)
  refine congrArg (V c main_v26) ?_
  funext a; apply Fin.ext
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

/-- The left weights' one block is the whole matrix. -/
theorem blk_wl (c : Dev nD) (t : Fin cfg1.N) (k : Fin 128) (q : Fin 32) :
    (iblk1 V c 2 t : Vec Ideal S128x32 .f32) (ix2 k q) = V c main_arg5 (ix2 k q) := by
  obtain ⟨-, -, -, -, e0, e1, -⟩ := idx_facts t
  show V c main_arg5 (((cfg1.win 2).blk t).view.emb (ix2 k q)) = V c main_arg5 (ix2 k q)
  refine congrArg (V c main_arg5) ?_
  funext a; apply Fin.ext
  match a with
  | ⟨0, _⟩ => show win1_2.index t (0 : Fin 2) * 128 + 1 * k.val = k.val; rw [e0]; omega
  | ⟨1, _⟩ => show win1_2.index t (1 : Fin 2) * 32 + 1 * q.val = q.val; rw [e1]; omega

/-- The right weights' one block is the whole matrix. -/
theorem blk_wr (c : Dev nD) (t : Fin cfg1.N) (k : Fin 128) (q : Fin 32) :
    (iblk1 V c 3 t : Vec Ideal S128x32 .f32) (ix2 k q) = V c main_arg7 (ix2 k q) := by
  obtain ⟨-, -, -, -, -, -, e0, e1, -⟩ := idx_facts t
  show V c main_arg7 (((cfg1.win 3).blk t).view.emb (ix2 k q)) = V c main_arg7 (ix2 k q)
  refine congrArg (V c main_arg7) ?_
  funext a; apply Fin.ext
  match a with
  | ⟨0, _⟩ => show win1_3.index t (0 : Fin 2) * 128 + 1 * k.val = k.val; rw [e0]; omega
  | ⟨1, _⟩ => show win1_3.index t (1 : Fin 2) * 32 + 1 * q.val = q.val; rw [e1]; omega

/-- The bias row's one block is the whole row. -/
theorem blk_b (c : Dev nD) (t : Fin cfg1.N) (q : Fin 32) :
    (iblk1 V c 4 t : Vec Ideal S1x32 .f32) (ix2 (0 : Fin 1) q) = V c main_v40 (ix2 (0 : Fin 1) q) := by
  obtain ⟨-, -, -, -, -, -, -, -, e0, e1, -⟩ := idx_facts t
  show V c main_v40 (((cfg1.win 4).blk t).view.emb (ix2 (0 : Fin 1) q)) = V c main_v40 (ix2 (0 : Fin 1) q)
  refine congrArg (V c main_v40) ?_
  funext a; apply Fin.ext
  match a with
  | ⟨0, _⟩ => show win1_4.index t (0 : Fin 2) * 1 + 1 * (0 : Fin 1).val = (0 : Fin 1).val; rw [e0]; rfl
  | ⟨1, _⟩ => show win1_4.index t (1 : Fin 2) * 32 + 1 * q.val = q.val; rw [e1]; omega

/-- Entry (p, q) of the result's block at point `t` sits at row `2000 t + p`, column `q` of the array. -/
theorem emb_out (t : Fin cfg1.N) (p : Fin 2000) (q : Fin 32) :
    ((cfg1.win 5).blk t).view.emb (ix2 p q) = ix2 (row t p) q := by
  obtain ⟨-, -, -, -, -, -, -, -, -, -, e0, e1⟩ := idx_facts t
  funext a; apply Fin.ext
  match a with
  | ⟨0, _⟩ => show win1_5.index t (0 : Fin 2) * 2000 + 1 * p.val = t.val * 2000 + p.val; rw [e0]; omega
  | ⟨1, _⟩ => show win1_5.index t (1 : Fin 2) * 32 + 1 * q.val = q.val; rw [e1]; omega

/-- An index of the result is in point `t`'s block iff each coordinate is in the block's range on its axis. -/
theorem mem_blk (t : Fin cfg1.N) (i : S100000x32.Idx) :
    i ∈ ((cfg1.win 5).blk t).view.set ↔ ∀ a : Fin 2, win1_5.index t a * S2000x32.size a ≤ (i a).val ∧ (i a).val < win1_5.index t a * S2000x32.size a + S2000x32.size a := by
  show i ∈ ((View.whole main_v41).slice (win1_5.rect t)).set ↔ _
  rw [View.set_slice_whole, Rect.mem_set_unit]
  exact Iff.rfl

/-- Every row of the result is in the block of the point `row / 2000`: the fifty blocks tile the array. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have hN : cfg1.N = 50 := N_1
  obtain ⟨t, ht⟩ : ∃ t : Fin cfg1.N, t.val = (i 0).val / 2000 := ⟨⟨(i 0).val / 2000, by omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; rw [e0]; omega
  | ⟨1, _⟩ => show win1_5.index t (1 : Fin 2) * 32 ≤ (i 1).val ∧ (i 1).val < win1_5.index t (1 : Fin 2) * 32 + 32; rw [e1]; omega

/-- The body's arithmetic on a row block is the second layer's function read through the block: the block's rows are
    rows `rowOf p` of the arrays, the weights and the bias are whole. -/
theorem block_eq (x0 x1 : Vec Ideal S2000x128 .f32) (x2 x3 : Vec Ideal S128x32 .f32) (x4 : Vec Ideal S1x32 .f32)
    (A H : FVec Ideal Cert.Sage.SN128 .f32) (WL WR : FVec Ideal Cert.Sage.SW32 .f32) (B : Fin 32 → Ideal .f32)
    (e : S2000x32.Idx → Cert.Sage.SN32.Idx) (rowOf : Fin 2000 → Fin 100000)
    (he : ∀ p q, e (ix2 p q) = ix2 (rowOf p) q)
    (h0 : ∀ p k, x0 (ix2 p k) = A (ix2 (rowOf p) k)) (h1 : ∀ p k, x1 (ix2 p k) = H (ix2 (rowOf p) k))
    (h2 : ∀ k q, x2 (ix2 k q) = WL (ix2 k q)) (h3 : ∀ k q, x3 (ix2 k q) = WR (ix2 k q))
    (h4 : ∀ q, x4 (ix2 (0 : Fin 1) q) = B q) :
    k1_pay1 (F := Ideal) x0 x1 x2 x3 x4 = fun y => Cert.Sage.layer2 A H WL WR B (e y) := by
  funext y
  obtain ⟨p, q, rfl⟩ : ∃ (p : Fin 2000) (q : Fin 32), y = ix2 p q := ⟨y 0, y 1, eq_ix2 y⟩
  rw [Cert.KernelIdeal.Pay.pay1_apply, he]
  unfold Cert.Sage.layer2 Cert.Sage.pre2
  simp only [h0, h1, h2, h3, h4]

/-- WHAT POINT `t` WRITES BACK is block `t` of the second layer's function of the arrays as the region finds them. -/
theorem flushed_eq (c : Dev nD) (t : Fin cfg1.N) :
    (dat1 V c).flushed 5 t = ((cfg1.win 5).blk t).view.read (Elt Ideal)
      (Cert.Sage.layer2 (V c main_v39) (V c main_v26) (V c main_arg5) (V c main_arg7) (fun q => V c main_v40 (ix2 (0 : Fin 1) q))) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x32) hz, View.ld_unit_zero (S := S1x32) hz]
  exact block_eq (iblk1 V c 0 t) (iblk1 V c 1 t) (iblk1 V c 2 t) (iblk1 V c 3 t) (iblk1 V c 4 t)
    (V c main_v39) (V c main_v26) (V c main_arg5) (V c main_arg7) (fun q => V c main_v40 (ix2 (0 : Fin 1) q))
    (fun y => ((cfg1.win 5).blk t).view.emb y) (row t) (emb_out t)
    (blk_a V c t) (blk_h V c t) (blk_wl V c t) (blk_wr V c t) (blk_b V c t)

/-- THE ARRAY the second region leaves: the second layer's function of the arrays it found. -/
theorem final (c : Dev nD) :
    (dat1 V c).arrAt 5 cfg1.N
      = Cert.Sage.layer2 (V c main_v39) (V c main_v26) (V c main_arg5) (V c main_arg7) (fun q => V c main_v40 (ix2 (0 : Fin 1) q)) :=
  (dat1 V c).arrAt_eq_of_cover 5 _ (fun t _ => flushed_eq V c t) cover

end Cert.KernelIdeal.Blocks1

end
-- ==== Proof.RefValue.lean ====
/-
  The reference's two dense layers, read as the specification's layers.

  Each layer of the reference computes, at an index (r, q),
      ((Σ_k a[r, k] · wl[k, q]) + b[q]) + Σ_k h[r, k] · wr[k, q],
  the first layer followed by `max(·, 0)`. The specification adds the two products first and the bias last.
  Addition on the extended reals is commutative and associative, so the two agree at every index.
-/
import proofs.«117404_j11081015624123_1_alg».proof.Proof.Gen.ReferenceIdeal.Read
import proofs.«117404_j11081015624123_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open scoped BigOperators

/-- The first layer of the reference is the specification's first layer of the aggregated features: at an
    index (r, q) the reference has `max(((p + b) + s), 0)` with `p` the product of the aggregated features
    with the left weights, `s` the product of the node features with the right weights and `b` the bias at
    `q`; the specification has `max(((p + s) + b), 0)`. -/
theorem v31_eq (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v31 (F := Ideal) x0 x1 x2 x3 x4
      = Cert.Sage.layer1 (val_main_v24 (F := Ideal) x0 x1) x0 x2 x4 (fun q => x3 (ix1 q)) := by
  funext i
  -- the left operand of each product is read at (row of i, k), the right at (k, column of i)
  have el1 : ∀ k : Fin 128, lidx_main_v25 i k = ix2 (i 0) k := fun k =>
    funext fun a => by match a with | ⟨0, _⟩ => rfl | ⟨1, _⟩ => rfl
  have er1 : ∀ k : Fin 128, ridx_main_v25 i k = ix2 k (i 1) := fun k =>
    funext fun a => by match a with | ⟨0, _⟩ => rfl | ⟨1, _⟩ => rfl
  have el2 : ∀ k : Fin 128, lidx_main_v29 i k = ix2 (i 0) k := fun k =>
    funext fun a => by match a with | ⟨0, _⟩ => rfl | ⟨1, _⟩ => rfl
  have er2 : ∀ k : Fin 128, ridx_main_v29 i k = ix2 k (i 1) := fun k =>
    funext fun a => by match a with | ⟨0, _⟩ => rfl | ⟨1, _⟩ => rfl
  -- the bias, broadcast along the rows, is read at the column of i
  have eb : idx_main_v26 (idx_main_v27 i) = ix1 (i 1) :=
    funext fun a => by match a with | ⟨0, _⟩ => rfl
  rw [val_main_v31_apply, val_main_v30_apply, val_main_v28_apply, val_main_v25_apply, val_main_v27_apply,
    val_main_v26_apply, val_main_v29_apply, val_main_call0_v0_apply, val_main_call0_cst_apply]
  unfold Cert.Sage.layer1 Cert.Sage.pre1
  simp only [el1, er1, el2, er2, eb, Ideal.addf_def, Ideal.maximumf_def, Ideal.ofBits_def]
  rw [Cert.Sage.add_bias_comm]
  rfl

/-- The second layer of the reference is the specification's second layer of the aggregated hidden features
    and the hidden features: `(p + b) + s` against `(p + s) + b` at every index. -/
theorem v50_eq (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128x32, .f32⟩ : BufTy).Contents (Elt Ideal))
    (x6 : (⟨S32, .f32⟩ : BufTy).Contents (Elt Ideal)) (x7 : (⟨S128x32, .f32⟩ : BufTy).Contents (Elt Ideal)) :
    val_main_v50 (F := Ideal) x0 x1 x2 x3 x4 x5 x6 x7
      = Cert.Sage.layer2 (val_main_v44 (F := Ideal) x0 x1 x2 x3 x4) (val_main_v31 (F := Ideal) x0 x1 x2 x3 x4) x5 x7
          (fun q => x6 (ix1 q)) := by
  funext i
  have el1 : ∀ k : Fin 128, lidx_main_v45 i k = ix2 (i 0) k := fun k =>
    funext fun a => by match a with | ⟨0, _⟩ => rfl | ⟨1, _⟩ => rfl
  have er1 : ∀ k : Fin 128, ridx_main_v45 i k = ix2 k (i 1) := fun k =>
    funext fun a => by match a with | ⟨0, _⟩ => rfl | ⟨1, _⟩ => rfl
  have el2 : ∀ k : Fin 128, lidx_main_v49 i k = ix2 (i 0) k := fun k =>
    funext fun a => by match a with | ⟨0, _⟩ => rfl | ⟨1, _⟩ => rfl
  have er2 : ∀ k : Fin 128, ridx_main_v49 i k = ix2 k (i 1) := fun k =>
    funext fun a => by match a with | ⟨0, _⟩ => rfl | ⟨1, _⟩ => rfl
  have eb : idx_main_v46 (idx_main_v47 i) = ix1 (i 1) :=
    funext fun a => by match a with | ⟨0, _⟩ => rfl
  rw [val_main_v50_apply, val_main_v48_apply, val_main_v45_apply, val_main_v47_apply, val_main_v46_apply,
    val_main_v49_apply]
  unfold Cert.Sage.layer2 Cert.Sage.pre2
  simp only [el1, er1, el2, er2, eb, Ideal.addf_def]
  rw [Cert.Sage.add_bias_comm]
  rfl

end Cert.ReferenceIdeal.RefValue

end
-- ==== Proof.KernelValue.lean ====
/-
  The kernel's result as a value. The first region leaves the first layer of the host's aggregation of the node
  features; the host stretch between the regions aggregates that; the second region leaves the second layer of the
  second aggregation and the first layer's output. Each host stretch is, operation for operation, the reference's;
  each dense layer is `Cert.Sage.layer1` / `layer2`, which the reference's stages are too. So the result array the
  kernel's run ends with is the reference's last stage of the launch arguments.
-/
import proofs.«117404_j11081015624123_1_alg».proof.Proof.KernelHost
import proofs.«117404_j11081015624123_1_alg».proof.Proof.KernelBlocks0
import proofs.«117404_j11081015624123_1_alg».proof.Proof.KernelBlocks1
import proofs.«117404_j11081015624123_1_alg».proof.Proof.KernelRun
import proofs.«117404_j11081015624123_1_alg».proof.Proof.RefValue

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Host

variable (m : (ℓ : Loc nD τ sig) → Buf (Elt Ideal) ℓ) (ρ : Dev nD → PrngReg)

/-- The reference's second aggregation is the mean aggregation applied to its first layer's output (its stages
    unfolded down to the gather and the scatter-add, which stay closed). -/
theorem agg2_eq (x0 : (⟨Cert.ReferenceIdeal.S100000x128, .f32⟩ : BufTy).Contents (Elt Ideal)) (x1 : (⟨Cert.ReferenceIdeal.S2x600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) :
    mulf (F := Ideal) (φ := .f32) (Host.scatterAdd Cert.ReferenceIdeal.scatter_S100000x128_S600000x1_S600000x128_1_0_0_1 (Cert.ReferenceIdeal.Read.val_main_v39 (F := Ideal))
            (Cert.ReferenceIdeal.Read.val_main_v40 (F := Ideal) x1)
            (Host.gather Cert.ReferenceIdeal.gather_S100000x128_S600000x1_S600000x128_1_0_n_n_0_1_1128 (Cert.ReferenceIdeal.Read.val_main_v31 (F := Ideal) x0 x1 x2 x3 x4)
              (Cert.ReferenceIdeal.Read.val_main_v37 (F := Ideal) x1)))
          (Cert.ReferenceIdeal.Read.val_main_v43 (F := Ideal) x1)
      = Cert.ReferenceIdeal.Read.val_main_v44 (F := Ideal) x0 x1 x2 x3 x4 := rfl

/-- What the first region leaves in its output array is the reference's first layer (activation included). -/
theorem W2_v26 (c : Dev nD) :
    W2 m ρ c (Proc.devRef .tc main_v26) = Cert.ReferenceIdeal.Read.val_main_v31 (F := Ideal) (X0 m c) (X1 m c) (X2 m c) (X3 m c) (X4 m c) := by
  have h := (W2_arr m ρ c 5).trans (Blocks0.final (V1 m ρ) c)
  rw [V1_v24, V1_arg0, V1_arg2, V1_arg4, V1_bias] at h
  exact h.trans (Cert.ReferenceIdeal.RefValue.v31_eq _ _ _ _ _).symm

/-- What the second region leaves in the result array is the reference's result. -/
theorem result (c : Dev nD) :
    W4 m ρ c (Proc.devRef .tc main_v41) = Cert.ReferenceIdeal.Read.val_main_v50 (F := Ideal) (X0 m c) (X1 m c) (X2 m c) (X3 m c) (X4 m c) (X5 m c) (X6 m c) (X7 m c) := by
  have h := (W4_arr m ρ c 5).trans (Blocks1.final (V3 m ρ) c)
  rw [V3_v39 m ρ c _ (W2_v26 m ρ c), agg2_eq, V3_v26, W2_v26, V3_arg5, V3_arg7, V3_bias] at h
  exact h.trans (Cert.ReferenceIdeal.RefValue.v50_eq _ _ _ _ _ _ _ _).symm

/-- The kernel's run, read: every weakly fair execution terminates, nothing faulting, with the result array at the
    reference's last stage of the launch arguments and the arguments unchanged. -/
theorem run : θ_run defs (onTc (τ := τ) (main (F := Ideal))) ⟨m, fun _ => 0, ρ⟩ (fun r => ∀ c : Dev nD,
      r.2.mem ((c.tc : Thread nD τ).loc main_v41) = Cert.ReferenceIdeal.Read.val_main_v50 (F := Ideal) (X0 m c) (X1 m c) (X2 m c) (X3 m c) (X4 m c) (X5 m c) (X6 m c) (X7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.Run.run_main m ρ)

end Cert.KernelIdeal.Result

end
-- ==== Proof.lean ====
/-
  Two GraphSAGE layers (mean aggregation on the host, a dense linear map in a pipelined kernel, `max(·, 0)` after the
  first) against the same network written in plain array operations.

  The two programs apply the SAME host operations for the degrees, their clamped reciprocals, the gather of source
  rows, the scatter-add into destination rows and the scaling; they differ only in the dense part of each layer. There
  the kernel computes, row block by row block, (a·Wl + h·Wr) + b with both products accumulated from zero and the
  inputs passed through a narrower float format, while the reference computes (a·Wl + b) + h·Wr with whole-array
  products. At the ideal values a change of float format is the identity, a matrix product into a zero accumulator
  and the host's product are the same finite sum, and addition on the extended reals is commutative and associative,
  so the two dense layers are one function of their inputs (`Cert.Sage.layer1`, `layer2`) for ALL extended-real
  inputs: the precondition is not used. The aggregation (a gather and a scatter-add) is never opened: the kernel's host
  stretches are identified with the reference's stages operation for operation and the layers are compared on
  arbitrary aggregated inputs.

  The idealization rewrote no operation, so `preserves` is trivial. The three frames are the generated ones (the
  reference's is its generated run with the result dropped).
-/
import proofs.«117404_j11081015624123_1_alg».proof.Defs
import proofs.«117404_j11081015624123_1_alg».proof.Proof.Gen.Kernel
import proofs.«117404_j11081015624123_1_alg».proof.Proof.Gen.Kernel.Frame
import proofs.«117404_j11081015624123_1_alg».proof.Proof.Gen.KernelIdeal
import proofs.«117404_j11081015624123_1_alg».proof.Proof.Gen.KernelIdeal.Frame
import proofs.«117404_j11081015624123_1_alg».proof.Proof.Gen.ReferenceIdeal
import proofs.«117404_j11081015624123_1_alg».proof.Proof.Gen.ReferenceIdeal.Run
import proofs.«117404_j11081015624123_1_alg».proof.Proof.Gen.ReferenceIdeal.Read
import proofs.«117404_j11081015624123_1_alg».proof.Proof.Gen.Pre_finite_inputs
import proofs.«117404_j11081015624123_1_alg».proof.Proof.KernelValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the ideal values. -/
theorem preserves : Cert.preserves_Kernel_KernelIdeal := trivial

/-- Both runs end with the result at the reference's last stage of the kernel's launch arguments: the kernel's by the
    value of its two regions and host stretches, the reference's by its generated run, the arguments' agreement
    rewritten. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq]
  obtain ⟨a0, a1, a2, a3, a4, a5, a6, a7⟩ := hagree c
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
